-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S1x8192 : Shape := ⟨2, ![1, 8192]⟩
abbrev S1x512 : Shape := ⟨2, ![1, 512]⟩
abbrev S512x1 : Shape := ⟨2, ![512, 1]⟩
abbrev S512x128 : Shape := ⟨2, ![512, 128]⟩
abbrev S2048x128 : Shape := ⟨2, ![2048, 128]⟩
abbrev S128x2048 : Shape := ⟨2, ![128, 2048]⟩
abbrev S512x2048 : Shape := ⟨2, ![512, 2048]⟩
abbrev S1x2048 : Shape := ⟨2, ![1, 2048]⟩
abbrev S512 : Shape := ⟨1, ![512]⟩

abbrev nBuf : Space → Nat
  | .hbm => 13
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S1x8192, .i32⟩
  | .hbm, ⟨8, _⟩ => ⟨S1x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8192x128, .bf16⟩
  | .local _ .vmem, ⟨1, _⟩ => ⟨S1x8192, .f32⟩
  | .local _ .vmem, ⟨2, _⟩ => ⟨S1x8192, .i32⟩
  | .local _ .vmem, ⟨3, _⟩ => ⟨S1x512, .f32⟩
  | .local _ .vmem, ⟨4, _⟩ => ⟨S1x512, .f32⟩
  | .local _ .vmem, ⟨5, _⟩ => ⟨S512x1, .f32⟩
  | .local _ .vmem, ⟨6, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg1 : BitVec 32 := BitVec.ofNat 32 (i 1).val
  let c2048_i32 : BitVec 32 := 2048#32
  let v2 : BitVec 32 := Scalar.muli arg1 c2048_i32
  v2
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v7 : Index := Scalar.indexCast v1
  let c0 : Index := 0#32
  ![v7.toNat, 0]
def k0_off2 (i : grid0.Coords) : Fin 2 → Nat :=
  let arg1 : BitVec 32 := BitVec.ofNat 32 (i 1).val
  let c2048_i32 : BitVec 32 := 2048#32
  let v2 : BitVec 32 := Scalar.muli arg1 c2048_i32
  let v3 : BitVec 32 := v2
  let v10 : Index := Scalar.indexCast v3
  let c0_1 : Index := 0#32
  ![v10.toNat, 0]
def k0_off3 (i : grid0.Coords) : Fin 2 → Nat :=
  let c0_2 : Index := 0#32
  let arg0 : BitVec 32 := BitVec.ofNat 32 (i 0).val
  let c512_i32 : BitVec 32 := 512#32
  let v0 : BitVec 32 := Scalar.muli arg0 c512_i32
  let v1 : BitVec 32 := v0
  let v15 : Index := Scalar.indexCast v1
  ![0, v15.toNat]
def k0_off4 (i : grid0.Coords) : Fin 2 → Nat :=
  let c0_3 : Index := 0#32
  let arg1 : BitVec 32 := BitVec.ofNat 32 (i 1).val
  let c2048_i32 : BitVec 32 := 2048#32
  let v2 : BitVec 32 := Scalar.muli arg1 c2048_i32
  let v3 : BitVec 32 := v2
  let v19 : Index := Scalar.indexCast v3
  ![0, v19.toNat]
def k0_cond2 (i : grid0.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_20 : BitVec 32 := 0#32
  let v61 : BitVec 1 := Scalar.cmpi .ne v60 c0_i32_20
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x128 : 0 < S512x128.numel
  shapeCasts_S512x128_S512x128 : S512x128.ShapeCasts S512x128
  h_S2048x128 : 0 < S2048x128.numel
  shapeCasts_S2048x128_S2048x128 : S2048x128.ShapeCasts S2048x128
  transposes_S2048x128_p1_0_S128x2048 : S2048x128.Transposes [1, 0] S128x2048
  h_S1x512 : 0 < S1x512.numel
  shapeCasts_S1x512_S1x512 : S1x512.ShapeCasts S1x512
  transposes_S1x512_p1_0_S512x1 : S1x512.Transposes [1, 0] S512x1
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  reducesTo_S1x8192_S_d0_1 : S1x8192.ReducesTo [0, 1] S_
  dot_S512x128_S128x2048_S512x2048_1_0_0_1_n_n_wf : DotDims.WF S512x128 S128x2048 S512x2048 [1] [0] [0] [1] [] []
  hrank0 : 0 < grid0.rank
  k0_mult1_dvd : ∀ i : grid0.Coords, 512 ∣ (k0_mult1 i).toNat
  k0_mult2_dvd : ∀ i : grid0.Coords, 2048 ∣ (k0_mult2 i).toNat
  k0_off1_inb : ∀ i : grid0.Coords, ∀ a, (k0_off1 i) a + S512x128.size a ≤ S8192x128.size a
  k0_off2_inb : ∀ i : grid0.Coords, ∀ a, (k0_off2 i) a + S2048x128.size a ≤ S8192x128.size a
  k0_off3_inb : ∀ i : grid0.Coords, ∀ a, (k0_off3 i) a + S1x512.size a ≤ S1x8192.size a
  k0_off4_inb : ∀ i : grid0.Coords, ∀ a, (k0_off4 i) a + S1x2048.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibTiledFold.lean ====
/-
  A running maximum (or minimum) over a row that is visited tile by tile.

  A row of `T * W` entries is cut into `T` consecutive tiles of `W` entries.  `maxUpTo b f j` is the maximum, from
  the starting value `b`, of the entries in the first `j` tiles, and `tileMax b f j` the maximum, from `b`, of
  tile `j` alone.  Joining the running value with the next tile's maximum gives the running value one tile
  further (`max_maxUpTo_tileMax`); before the first tile the running value is `b` (`maxUpTo_zero`) and after the
  last it is the maximum of the whole row (`maxUpTo_all`).  Nothing is asked of `b`: it need not be a least
  element, because it is joined into every tile's maximum and `max` is idempotent.  The statements for `min` are
  the order duals.  Everything is read off the universal property of a fold of `max`: an element is above the
  fold exactly when it is above the starting value and above every entry.
-/
import Mathlib.Data.Finset.Fold
import Mathlib.Data.Fintype.Basic
import Mathlib.Order.Basic

namespace TiledFold

variable {α : Type*} [LinearOrder α] {T W : ℕ}

theorem add_one_mul_eq (j W : ℕ) : (j + 1) * W = j * W + W := Nat.succ_mul j W

/-- Column `q` of tile `j`, as a column of the whole row. -/
def col (j : Fin T) (q : Fin W) : Fin (T * W) :=
  ⟨j.val * W + q.val, by
    have hj := j.isLt; have hq := q.isLt
    calc j.val * W + q.val < j.val * W + W := by omega
      _ = (j.val + 1) * W := (add_one_mul_eq j.val W).symm
      _ ≤ T * W := Nat.mul_le_mul_right W hj⟩

@[simp] theorem col_val (j : Fin T) (q : Fin W) : (col j q).val = j.val * W + q.val := rfl

/-- Every column of the row lies in exactly one tile: the one numbered by its quotient by the tile width. -/
theorem exists_col (c : Fin (T * W)) (j : Fin T) (h0 : j.val * W ≤ c.val) (h1 : c.val < (j.val + 1) * W) :
    ∃ q : Fin W, col j q = c :=
  ⟨⟨c.val - j.val * W, by have := add_one_mul_eq j.val W; omega⟩, Fin.ext (by simp only [col_val]; omega)⟩

/-- The maximum, from `b`, over the first `j` tiles of the row. -/
def maxUpTo (b : α) (f : Fin (T * W) → α) (j : ℕ) : α :=
  (Finset.univ.filter fun c : Fin (T * W) => c.val < j * W).fold max b f

/-- The maximum, from `b`, over tile `j`. -/
def tileMax (b : α) (f : Fin (T * W) → α) (j : Fin T) : α :=
  (Finset.univ : Finset (Fin W)).fold max b fun q => f (col j q)

/-- The minimum, from `b`, over the first `j` tiles of the row. -/
def minUpTo (b : α) (f : Fin (T * W) → α) (j : ℕ) : α :=
  (Finset.univ.filter fun c : Fin (T * W) => c.val < j * W).fold min b f

/-- The minimum, from `b`, over tile `j`. -/
def tileMin (b : α) (f : Fin (T * W) → α) (j : Fin T) : α :=
  (Finset.univ : Finset (Fin W)).fold min b fun q => f (col j q)

theorem maxUpTo_zero (b : α) (f : Fin (T * W) → α) : maxUpTo b f 0 = b := by
  unfold maxUpTo
  rw [Finset.filter_false_of_mem (fun c _ => by omega), Finset.fold_empty]

theorem minUpTo_zero (b : α) (f : Fin (T * W) → α) : minUpTo b f 0 = b := by
  unfold minUpTo
  rw [Finset.filter_false_of_mem (fun c _ => by omega), Finset.fold_empty]

theorem maxUpTo_all (b : α) (f : Fin (T * W) → α) : maxUpTo b f T = (Finset.univ : Finset (Fin (T * W))).fold max b f := by
  unfold maxUpTo
  rw [Finset.filter_true_of_mem (fun c _ => c.isLt)]

theorem minUpTo_all (b : α) (f : Fin (T * W) → α) : minUpTo b f T = (Finset.univ : Finset (Fin (T * W))).fold min b f := by
  unfold minUpTo
  rw [Finset.filter_true_of_mem (fun c _ => c.isLt)]

/-- The running maximum joined with the next tile's maximum is the running maximum one tile further. -/
theorem max_maxUpTo_tileMax (b : α) (f : Fin (T * W) → α) (j : Fin T) :
    max (maxUpTo b f j.val) (tileMax b f j) = maxUpTo b f (j.val + 1) := by
  refine eq_of_forall_ge_iff fun c => ?_
  unfold maxUpTo tileMax
  simp only [max_le_iff, Finset.fold_max_le, Finset.mem_filter, Finset.mem_univ, true_and, forall_true_left]
  constructor
  · rintro ⟨⟨hb, h1⟩, -, h2⟩
    refine ⟨hb, fun x hx => ?_⟩
    by_cases hlt : x.val < j.val * W
    · exact h1 x hlt
    · obtain ⟨q, rfl⟩ := exists_col x j (not_lt.mp hlt) hx
      exact h2 q
  · rintro ⟨hb, h⟩
    refine ⟨⟨hb, fun x hx => h x ?_⟩, hb, fun q => h (col j q) ?_⟩
    · have := add_one_mul_eq j.val W; omega
    · have hq := q.isLt
      have := add_one_mul_eq j.val W
      simp only [col_val]; omega

/-- The running minimum joined with the next tile's minimum is the running minimum one tile further. -/
theorem min_minUpTo_tileMin (b : α) (f : Fin (T * W) → α) (j : Fin T) :
    min (minUpTo b f j.val) (tileMin b f j) = minUpTo b f (j.val + 1) := by
  refine eq_of_forall_le_iff fun c => ?_
  unfold minUpTo tileMin
  simp only [le_min_iff, Finset.le_fold_min, Finset.mem_filter, Finset.mem_univ, true_and, forall_true_left]
  constructor
  · rintro ⟨⟨hb, h1⟩, -, h2⟩
    refine ⟨hb, fun x hx => ?_⟩
    by_cases hlt : x.val < j.val * W
    · exact h1 x hlt
    · obtain ⟨q, rfl⟩ := exists_col x j (not_lt.mp hlt) hx
      exact h2 q
  · rintro ⟨hb, h⟩
    refine ⟨⟨hb, fun x hx => h x ?_⟩, hb, fun q => h (col j q) ?_⟩
    · have := add_one_mul_eq j.val W; omega
    · have hq := q.isLt
      have := add_one_mul_eq j.val W
      simp only [col_val]; omega

end TiledFold
-- ==== Proof.Spec.lean ====
/-
  The batch-hard triplet margin loss over the extended reals, as one function of the two argument arrays.

  `X` is the [8192, 128] feature matrix and `lab` the 8192 labels.  For rows `r`, `c`:
    sqNorm r   = 0 + Σ_k X[r,k]²                       (the zero is the sum's starting value)
    gram r c   = Σ_k X[r,k] · X[c,k]
    dist r c   = sqrt (max (sqNorm r + sqNorm c − 2 · gram r c) ε)
    posCand r c = dist r c if the labels agree, −∞ otherwise;   negCand r c = +∞ if they agree, dist r c otherwise
    hardestPos r = max over c of posCand r c (from −∞);   hardestNeg r = min over c of negCand r c (from +∞)
    rowLoss r  = max (hardestPos r − hardestNeg r + margin) 0
    meanLoss   = (0 + Σ_r rowLoss r) / 8192
  The float literals stay as their bit patterns: the same pattern stands on both sides of the claim and is never
  evaluated.  The whole-row maximum and minimum are also given as the running value after the last of four tiles of
  2048 columns (`hardestPos_eq`, `hardestNeg_eq`), which is how a tiled computation reaches them.
-/
import Idealize.ShloMosaic.PureOps.Ideal
import Idealize.ShloMosaic.Lib.ValueIdx
import proofs.«181193_j86414741995528_1_alg».proof.Proof.LibTiledFold

noncomputable section

namespace Cert.TripletSpec

open Idealize.ShloMosaic Idealize.ShloMosaic.ValueIdx

/-- The feature matrix and the label vector, at the ideal values. -/
abbrev Feat := FVec Ideal ⟨2, ![8192, 128]⟩ .f32
abbrev Lab := IVec ⟨1, ![8192]⟩ 32

abbrev negInf : EReal := Ideal.ofBits .f32 0xFF800000#32
abbrev posInf : EReal := Ideal.ofBits .f32 0x7F800000#32
abbrev zeroF : EReal := Ideal.ofBits .f32 0x00000000#32
abbrev twoF : EReal := Ideal.ofBits .f32 0x40000000#32
abbrev epsF : EReal := Ideal.ofBits .f32 0x2B8CBCCC#32
abbrev marginF : EReal := Ideal.ofBits .f32 0x3E99999A#32
abbrev countF : EReal := Ideal.ofBits .f32 0x46000000#32

variable (X : Feat) (lab : Lab)

/-- The squared norm of row `r`. -/
def sqNorm (r : Fin 8192) : EReal := zeroF + ∑ k : Fin 128, X (ix2 r k) * X (ix2 r k)

/-- The inner product of rows `r` and `c`. -/
def gram (r c : Fin 8192) : EReal := ∑ k : Fin 128, X (ix2 r k) * X (ix2 c k)

/-- The clamped Euclidean distance of rows `r` and `c`, by the Gram expansion. -/
def dist (r c : Fin 8192) : EReal := Ideal.sqrt (max (sqNorm X r + sqNorm X c - twoF * gram X r c) epsF)

/-- Whether rows `r` and `c` carry the same label, as a one-bit word. -/
def sameLabel (r c : Fin 8192) : BitVec 1 := IntOp.cmpi .eq (lab (ix1 r)) (lab (ix1 c))

/-- Column `c`'s candidate for row `r`'s hardest positive, and for its hardest negative. -/
def posCand (r c : Fin 8192) : EReal := Scalar.select (sameLabel lab r c) (dist X r c) negInf
def negCand (r c : Fin 8192) : EReal := Scalar.select (sameLabel lab r c) posInf (dist X r c)

/-- The farthest same-label row and the nearest other-label row. -/
def hardestPos (r : Fin 8192) : EReal := (Finset.univ : Finset (Fin 8192)).fold max negInf (posCand X lab r)
def hardestNeg (r : Fin 8192) : EReal := (Finset.univ : Finset (Fin 8192)).fold min posInf (negCand X lab r)

/-- Row `r`'s hinge loss. -/
def rowLoss (r : Fin 8192) : EReal := max (hardestPos X lab r - hardestNeg X lab r + marginF) zeroF

/-- The mean of the rows' losses. -/
def meanLoss : EReal := Ideal.div (zeroF + ∑ r : Fin 8192, rowLoss X lab r) countF

/-- The running maximum of row `r`'s positive candidates over the first `j` column tiles of width 2048, and the
    running minimum of its negative candidates. -/
def posUpTo (r : Fin 8192) (j : ℕ) : EReal := TiledFold.maxUpTo (T := 4) (W := 2048) negInf (posCand X lab r) j
def negUpTo (r : Fin 8192) (j : ℕ) : EReal := TiledFold.minUpTo (T := 4) (W := 2048) posInf (negCand X lab r) j

/-- One column tile's maximum of positive candidates and minimum of negative candidates. -/
def posTile (r : Fin 8192) (j : Fin 4) : EReal := TiledFold.tileMax (T := 4) (W := 2048) negInf (posCand X lab r) j
def negTile (r : Fin 8192) (j : Fin 4) : EReal := TiledFold.tileMin (T := 4) (W := 2048) posInf (negCand X lab r) j

theorem posUpTo_zero (r : Fin 8192) : posUpTo X lab r 0 = negInf := TiledFold.maxUpTo_zero _ _
theorem negUpTo_zero (r : Fin 8192) : negUpTo X lab r 0 = posInf := TiledFold.minUpTo_zero _ _

theorem posUpTo_succ (r : Fin 8192) (j : Fin 4) :
    max (posUpTo X lab r j.val) (posTile X lab r j) = posUpTo X lab r (j.val + 1) :=
  TiledFold.max_maxUpTo_tileMax _ _ j
theorem negUpTo_succ (r : Fin 8192) (j : Fin 4) :
    min (negUpTo X lab r j.val) (negTile X lab r j) = negUpTo X lab r (j.val + 1) :=
  TiledFold.min_minUpTo_tileMin _ _ j

theorem hardestPos_eq (r : Fin 8192) : posUpTo X lab r 4 = hardestPos X lab r := TiledFold.maxUpTo_all (T := 4) (W := 2048) _ _
theorem hardestNeg_eq (r : Fin 8192) : negUpTo X lab r 4 = hardestNeg X lab r := TiledFold.minUpTo_all (T := 4) (W := 2048) _ _

end Cert.TripletSpec

end
-- ==== Proof.RefLoss.lean ====
/-
  The reference program's result is the specification's mean loss.

  The reference computes, for the feature matrix X and the labels, the squared norms of the rows, the Gram matrix
  X·Xᵀ, the clamped distances sqrt (max (|x_r|² + |x_c|² − 2·⟨x_r, x_c⟩) ε), the label-equality mask, the two masked
  distance matrices, their row maximum and row minimum, the hinge of the difference plus the margin, and the mean
  over the rows. Each stage is read at explicit coordinates (row r, column c) and identified with the
  specification's function of the same name; the two whole-row reductions are read as folds over the column
  coordinate, and the last sum over the rank-1 index set is re-indexed by its coordinate.
-/
import proofs.«181193_j86414741995528_1_alg».proof.Proof.Gen.ReferenceIdeal.Read
import proofs.«181193_j86414741995528_1_alg».proof.Proof.Spec
import Idealize.ShloMosaic.Lib.ValueIdx
import Idealize.ShloMosaic.Lib.ValueIdxRank1
import Idealize.ShloMosaic.PureOps.Ideal.Laws

noncomputable section

namespace Cert.TripletRef

open Cert.ReferenceIdeal Cert.ReferenceIdeal.Gen Cert.ReferenceIdeal.Read Cert.TripletSpec
open Idealize.ShloMosaic Idealize.ShloMosaic.ValueIdx

variable (x0 : (⟨S8192x128, .f32⟩ : BufTy).Contents (Elt Ideal)) (x1 : (⟨S8192, .i32⟩ : BufTy).Contents (Elt Ideal))

/-! ## The squared norms and the Gram matrix -/

/-- Row `r`'s squared norm: the zero starting value plus the sum of the squares along the row. -/
theorem sqNorm_at (r : Fin 8192) : val_main_v1 (F := Ideal) x0 (ix1 r) = sqNorm x0 r := by
  unfold sqNorm
  rw [val_main_v1_apply, val_main_cst_apply]
  refine congrArg (_ + ·) (Finset.sum_congr rfl fun k _ => ?_)
  have e : idx_main_v1 (ix1 r) k = ix2 r k :=
    funext fun a => Fin.ext (by match a with | ⟨0, _⟩ => rfl | ⟨1, _⟩ => rfl)
  rw [val_main_v0_apply, e]
  rfl

/-- The squared norm broadcast along the columns is row `r`'s. -/
theorem rowNorm_at (r c : Fin 8192) : val_main_v4 (F := Ideal) x0 (ix2 r c) = sqNorm x0 r := by
  rw [val_main_v4_apply, val_main_v2_apply]
  have e : idx_main_v2 (idx_main_v4 (ix2 r c)) = ix1 r :=
    funext fun a => Fin.ext (by match a with | ⟨0, _⟩ => rfl)
  rw [e, sqNorm_at]

/-- The squared norm broadcast along the rows is column `c`'s. -/
theorem colNorm_at (r c : Fin 8192) : val_main_v5 (F := Ideal) x0 (ix2 r c) = sqNorm x0 c := by
  rw [val_main_v5_apply, val_main_v3_apply]
  have e : idx_main_v3 (idx_main_v5 (ix2 r c)) = ix1 c :=
    funext fun a => Fin.ext (by match a with | ⟨0, _⟩ => rfl)
  rw [e, sqNorm_at]

/-- The product with the transpose, at `(r, c)`: the inner product of rows `r` and `c`. -/
theorem gram_at (r c : Fin 8192) : val_main_v8 (F := Ideal) x0 (ix2 r c) = gram x0 r c := by
  unfold gram
  rw [val_main_v8_apply]
  refine Finset.sum_congr rfl fun k _ => ?_
  have el : lidx_main_v8 (ix2 r c) k = ix2 r k :=
    funext fun a => Fin.ext (by match a with | ⟨0, _⟩ => rfl | ⟨1, _⟩ => rfl)
  have er : idx_main_v7 (ridx_main_v8 (ix2 r c) k) = ix2 c k :=
    funext fun a => Fin.ext (by match a with | ⟨0, _⟩ => rfl | ⟨1, _⟩ => rfl)
  rw [val_main_v7_apply, el, er]

/-! ## The distances, the mask and the candidates -/

/-- The clamped distance of rows `r` and `c`. -/
theorem dist_at (r c : Fin 8192) : val_main_v14 (F := Ideal) x0 (ix2 r c) = dist x0 r c := by
  unfold TripletSpec.dist
  rw [val_main_v14_apply, val_main_v13_apply, val_main_v11_apply, val_main_v6_apply, rowNorm_at, colNorm_at,
    val_main_v10_apply, val_main_v9_apply, val_main_cst_0_apply, gram_at, val_main_v12_apply, val_main_cst_1_apply]
  rfl

/-- The label comparison at `(r, c)`. -/
theorem sameLabel_at (r c : Fin 8192) : val_main_v19 (F := Ideal) x1 (ix2 r c) = sameLabel x1 r c := by
  unfold sameLabel
  rw [val_main_v19_apply, val_main_v17_apply, val_main_v15_apply, val_main_v18_apply, val_main_v16_apply]
  have e1 : idx_main_v15 (idx_main_v17 (ix2 r c)) = ix1 r :=
    funext fun a => Fin.ext (by match a with | ⟨0, _⟩ => rfl)
  have e2 : idx_main_v16 (idx_main_v18 (ix2 r c)) = ix1 c :=
    funext fun a => Fin.ext (by match a with | ⟨0, _⟩ => rfl)
  rw [e1, e2]

/-- The distance where the labels agree, −∞ elsewhere. -/
theorem posCand_at (r c : Fin 8192) : val_main_v20 (F := Ideal) x0 x1 (ix2 r c) = posCand x0 x1 r c := by
  unfold posCand
  rw [val_main_v20_apply, sameLabel_at, dist_at, val_main_call0_v1_apply, val_main_call0_v0_apply,
    val_main_cst_2_apply]
  rfl

/-- +∞ where the labels agree, the distance elsewhere. -/
theorem negCand_at (r c : Fin 8192) : val_main_v22 (F := Ideal) x0 x1 (ix2 r c) = negCand x0 x1 r c := by
  unfold negCand
  rw [val_main_v22_apply, sameLabel_at, dist_at, val_main_call1_v1_apply, val_main_call1_v0_apply,
    val_main_cst_4_apply]
  rfl

/-! ## The two row reductions -/

/-- Dropping the column axis of the square matrix leaves the row axis. -/
theorem reduces_cols : S8192x8192.Reduces [(1 : Fin S8192x8192.rank)] S8192 := by decide

/-- The index over row `r` with column coordinate `c` inserted is `(r, c)`. -/
theorem lift_cols (r c : Fin 8192) : reduces_cols.lift (ix1 r) c = ix2 r c :=
  funext fun a => Fin.ext (by match a with | ⟨0, _⟩ => rfl | ⟨1, _⟩ => rfl)

/-- The row maximum of the positive candidates, from −∞. -/
theorem hardestPos_at (r : Fin 8192) : val_main_v21 (F := Ideal) x0 x1 (ix1 r) = hardestPos x0 x1 r := by
  have h := Host.reduce_eq_fold_single (a := (1 : Fin S8192x8192.rank)) (FloatOps.maximumf (F := Ideal) (φ := .f32))
    (val_main_v20 (F := Ideal) x0 x1) (val_main_cst_3 (F := Ideal)) reducesTo_S8192x8192_S8192_d1 reduces_cols h_S_ (ix1 r)
  refine h.trans ?_
  have hf : (val_main_v20 (F := Ideal) x0 x1 ∘ reduces_cols.lift (ix1 r)) = posCand x0 x1 r :=
    funext fun (c : Fin 8192) => by
      show val_main_v20 (F := Ideal) x0 x1 (reduces_cols.lift (ix1 r) c) = _
      rw [lift_cols, posCand_at]
  rw [hf]
  rfl

/-- The row minimum of the negative candidates, from +∞. -/
theorem hardestNeg_at (r : Fin 8192) : val_main_v23 (F := Ideal) x0 x1 (ix1 r) = hardestNeg x0 x1 r := by
  have h := Host.reduce_eq_fold_single (a := (1 : Fin S8192x8192.rank)) (FloatOps.minimumf (F := Ideal) (φ := .f32))
    (val_main_v22 (F := Ideal) x0 x1) (val_main_cst_5 (F := Ideal)) reducesTo_S8192x8192_S8192_d1 reduces_cols h_S_ (ix1 r)
  refine h.trans ?_
  have hf : (val_main_v22 (F := Ideal) x0 x1 ∘ reduces_cols.lift (ix1 r)) = negCand x0 x1 r :=
    funext fun (c : Fin 8192) => by
      show val_main_v22 (F := Ideal) x0 x1 (reduces_cols.lift (ix1 r) c) = _
      rw [lift_cols, negCand_at]
  rw [hf]
  rfl

/-! ## The hinge and the mean -/

/-- Row `r`'s hinge loss. -/
theorem rowLoss_at (r : Fin 8192) : val_main_v27 (F := Ideal) x0 x1 (ix1 r) = rowLoss x0 x1 r := by
  unfold rowLoss
  rw [val_main_v27_apply, val_main_v26_apply, val_main_v24_apply, hardestPos_at, hardestNeg_at, val_main_v25_apply,
    val_main_cst_6_apply, val_main_call2_v0_apply, val_main_call2_cst_apply]
  rfl

/-- The sum of the hinge losses over the rank-1 index set is the sum over the rows. -/
theorem sum_rowLoss :
    ∑ j : S8192.Idx, val_main_v27 (F := Ideal) x0 x1 j = ∑ r : Fin 8192, rowLoss x0 x1 r :=
  (Equiv.sum_comp (idxEquiv1 (n := 8192)).symm (val_main_v27 (F := Ideal) x0 x1)).symm.trans
    (Finset.sum_congr rfl fun r _ => rowLoss_at x0 x1 r)

/-- The reference's result, at its one index, is the mean loss. -/
theorem ref_result (x0 : (⟨Cert.ReferenceIdeal.S8192x128, .f32⟩ : BufTy).Contents (Elt Ideal)) (x1 : (⟨Cert.ReferenceIdeal.S8192, .i32⟩ : BufTy).Contents (Elt Ideal)) :
    Cert.ReferenceIdeal.Read.val_main_v29 (F := Ideal) x0 x1 = fun _ => Cert.TripletSpec.meanLoss x0 x1 := by
  funext i
  unfold meanLoss
  rw [val_main_v29_apply, val_main_v28_apply, val_main_cst_7_apply, val_main_cst_8_apply, sum_rowLoss]
  rfl

end Cert.TripletRef

end
-- ==== Proof.KernelPieces.lean ====
/-
  What one grid point's body leaves behind, as values of what it reads.

  At grid point `i = (row tile, column tile)` the body reads six blocks of the three staged arrays: the 512 feature
  rows of its row tile and the 2048 feature rows of its column tile, and the matching stretches of the squared-norm
  row and of the label row.  From these it forms the 512 × 2048 tile of masked distances (`tilePos`: the distance
  where the labels agree, −∞ elsewhere; `tileDist` and `tileSame`: the distance and the label agreement, from which
  the other mask is formed).  The two scratch columns hold the running row maximum and row minimum:
    · at the first column tile they are reset to −∞ / +∞ and then joined with this tile's row maximum / minimum;
    · at every other column tile what the point before left is joined with this tile's;
    · at the last column tile the output block is, in addition, the hinge of the two columns just updated.
  Each statement below says this of one buffer in one of the three cases, at any float instance.
-/
import proofs.«181193_j86414741995528_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl

/-- The six blocks the body at point `i` reads of the staged arrays. -/
abbrev rowFeat (i : grid0.Coords) (x0 : Vec F S8192x128 .bf16) : Vec F S512x128 .bf16 :=
  View.ld x0 (Rect.unit (k0_off1 i) S512x128.size (k0_off1_inb i))
abbrev colFeat (i : grid0.Coords) (x0 : Vec F S8192x128 .bf16) : Vec F S2048x128 .bf16 :=
  View.ld x0 (Rect.unit (k0_off2 i) S2048x128.size (k0_off2_inb i))
abbrev rowSq (i : grid0.Coords) (x1 : Vec F S1x8192 .f32) : Vec F S1x512 .f32 :=
  View.ld x1 (Rect.unit (k0_off3 i) S1x512.size (k0_off3_inb i))
abbrev colSq (i : grid0.Coords) (x1 : Vec F S1x8192 .f32) : Vec F S1x2048 .f32 :=
  View.ld x1 (Rect.unit (k0_off4 i) S1x2048.size (k0_off4_inb i))
abbrev rowLab (i : grid0.Coords) (x2 : Vec F S1x8192 .i32) : Vec F S1x512 .i32 :=
  View.ld x2 (Rect.unit (k0_off3 i) S1x512.size (k0_off3_inb i))
abbrev colLab (i : grid0.Coords) (x2 : Vec F S1x8192 .i32) : Vec F S1x2048 .i32 :=
  View.ld x2 (Rect.unit (k0_off4 i) S1x2048.size (k0_off4_inb i))

/-- The tile of distances, of label agreements, and of distances masked to −∞ where the labels differ. -/
def tileDist (i : grid0.Coords) (x0 : Vec F S8192x128 .bf16) (x1 : Vec F S1x8192 .f32) : FVec F S512x2048 .f32 :=
  k0_pay6 (rowFeat i x0) (colFeat i x0) (rowSq i x1) (colSq i x1)
def tileSame (i : grid0.Coords) (x2 : Vec F S1x8192 .i32) : IVec S512x2048 1 :=
  k0_pay7 (F := F) (rowLab i x2) (colLab i x2)
def tilePos (i : grid0.Coords) (x0 : Vec F S8192x128 .bf16) (x1 : Vec F S1x8192 .f32) (x2 : Vec F S1x8192 .i32) : FVec F S512x2048 .f32 :=
  k0_pay8 (rowFeat i x0) (colFeat i x0) (rowSq i x1) (colSq i x1) (rowLab i x2) (colLab i x2)

/-- The running maximum column after this tile, from what it held before; likewise the running minimum. -/
def nextMax (i : grid0.Coords) (x0 : Vec F S8192x128 .bf16) (x1 : Vec F S1x8192 .f32) (x2 : Vec F S1x8192 .i32) (prev : Vec F S512x1 .f32) : FVec F S512x1 .f32 :=
  k0_pay1 (tilePos i x0 x1 x2) prev
def nextMin (i : grid0.Coords) (x0 : Vec F S8192x128 .bf16) (x1 : Vec F S1x8192 .f32) (x2 : Vec F S1x8192 .i32) (prev : Vec F S512x1 .f32) : FVec F S512x1 .f32 :=
  k0_pay2 (tileDist i x0 x1) (tileSame (F := F) i x2) prev

/-- A middle column tile: the maximum column is what it held joined with this tile's row maxima. -/
theorem mid_max (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 : Vec F S8192x128 .bf16) (x1 : Vec F S1x8192 .f32) (x2 : Vec F S1x8192 .i32) (xs0 xs1 : Vec F S512x1 .f32) :
    sout0_B_0 c i arg2 harg2 arg3 harg3 arg4 harg4 arg5 harg5 arg6 harg6 arg7 harg7 hc0 hc1 x0 x1 x2 xs0 xs1 = nextMax i x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_run_names
  rw [View.canon_unit_zero zeros2]
  simp only [View.readAt_eq_ld, harg2.read_unread, harg3.read_unread, harg4.read_unread, harg6.read_unread, harg7.read_unread,
    View.ld_unit_zero (S := S512x1) zeros2]
  rfl

/-- A middle column tile: the minimum column likewise. -/
theorem mid_min (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 : Vec F S8192x128 .bf16) (x1 : Vec F S1x8192 .f32) (x2 : Vec F S1x8192 .i32) (xs0 xs1 : Vec F S512x1 .f32) :
    sout0_B_1 c i arg2 harg2 arg3 harg3 arg4 harg4 arg5 harg5 arg6 harg6 arg7 harg7 hc0 hc1 x0 x1 x2 xs0 xs1 = nextMin i x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_run_names
  rw [View.canon_unit_zero zeros2]
  simp only [View.readAt_eq_ld, harg2.read_unread, harg3.read_unread, harg4.read_unread, harg6.read_unread, harg7.read_unread,
    View.ld_unit_zero (S := S512x1) zeros2]
  rfl

/-- The last column tile: the two columns are updated as at a middle tile, -/
theorem last_max (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 : Vec F S8192x128 .bf16) (x1 : Vec F S1x8192 .f32) (x2 : Vec F S1x8192 .i32) (xs0 xs1 : Vec F S512x1 .f32) :
    sout0_C_0 c i arg2 harg2 arg3 harg3 arg4 harg4 arg5 harg5 arg6 harg6 arg7 harg7 hc0 hc1 x0 x1 x2 xs0 xs1 = nextMax i x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_run_names
  rw [View.canon_unit_zero zeros2]
  simp only [View.readAt_eq_ld, harg2.read_unread, harg3.read_unread, harg4.read_unread, harg6.read_unread, harg7.read_unread,
    View.ld_unit_zero (S := S512x1) zeros2]
  rfl

theorem last_min (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 : Vec F S8192x128 .bf16) (x1 : Vec F S1x8192 .f32) (x2 : Vec F S1x8192 .i32) (xs0 xs1 : Vec F S512x1 .f32) :
    sout0_C_1 c i arg2 harg2 arg3 harg3 arg4 harg4 arg5 harg5 arg6 harg6 arg7 harg7 hc0 hc1 x0 x1 x2 xs0 xs1 = nextMin i x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_run_names
  rw [View.canon_unit_zero zeros2]
  simp only [View.readAt_eq_ld, harg2.read_unread, harg3.read_unread, harg4.read_unread, harg6.read_unread, harg7.read_unread,
    View.ld_unit_zero (S := S512x1) zeros2]
  rfl

/-- and the output block is the hinge of the two columns just updated. -/
theorem last_out (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 : Vec F S8192x128 .bf16) (x1 : Vec F S1x8192 .f32) (x2 : Vec F S1x8192 .i32) (xs0 xs1 : Vec F S512x1 .f32) :
    out0_C_3 c i arg2 harg2 arg3 harg3 arg4 harg4 arg5 harg5 arg6 harg6 arg7 harg7 hc0 hc1 x0 x1 x2 xs0 xs1 = k0_pay3 (nextMax i x0 x1 x2 xs0) (nextMin i x0 x1 x2 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_run_names
  rw [View.canon_unit_zero zeros2]
  simp only [View.readAt_eq_ld, harg2.read_unread, harg3.read_unread, harg4.read_unread, harg6.read_unread, harg7.read_unread,
    View.ld_unit_zero (S := S512x1) zeros2, View.readCov_unit_zero (S := S512x1) _ zeros2]
  rfl

/-- The first column tile: the columns are reset, to −∞ and to +∞, and then joined with this tile's. -/
theorem first_max (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 : Vec F S8192x128 .bf16) (x1 : Vec F S1x8192 .f32) (x2 : Vec F S1x8192 .i32) :
    sout0_A_0 c i arg2 harg2 arg3 harg3 arg4 harg4 arg5 harg5 arg6 harg6 arg7 harg7 hc0 hc1 x0 x1 x2 = nextMax i x0 x1 x2 (k0_pay4 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_run_names
  rw [View.canon_cons_unit_zero (S := S512x1) zeros2]
  simp only [View.readAt_eq_ld, harg2.read_unread, harg3.read_unread, harg4.read_unread,
    View.ld_unit_zero (S := S512x1) zeros2, View.readCov_unit_zero (S := S512x1) _ zeros2]
  rfl

theorem first_min (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S1x8192 .i32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 : Vec F S8192x128 .bf16) (x1 : Vec F S1x8192 .f32) (x2 : Vec F S1x8192 .i32) :
    sout0_A_1 c i arg2 harg2 arg3 harg3 arg4 harg4 arg5 harg5 arg6 harg6 arg7 harg7 hc0 hc1 x0 x1 x2 = nextMin i x0 x1 x2 (k0_pay5 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_run_names
  rw [View.canon_cons_unit_zero (S := S512x1) zeros2]
  simp only [View.readAt_eq_ld, harg2.read_unread, harg3.read_unread, harg4.read_unread,
    View.ld_unit_zero (S := S512x1) zeros2, View.readCov_unit_zero (S := S512x1) _ zeros2]
  rfl

end Cert.KernelIdeal.Pieces

end
-- ==== Proof.TileIndex.lean ====
/-
  The tile of grid point `t`, entry by entry, over the extended reals.

  Point `t` of the 16 × 4 grid works on row tile `t / 4` (512 rows) and column tile `t % 4` (2048 columns).  Entry
  `(p, q)` of its tile of distances is the distance of rows `512 (t/4) + p` and `2048 (t%4) + q` of the feature
  matrix; the label agreement and the two masked distances likewise.  The row maximum the body takes of the tile is
  the maximum over the tile's 2048 columns, so the running-maximum column after the point is what it held joined with
  one column tile's maximum (`nextMax_apply`), and the minimum column likewise (`nextMin_apply`); the output block is
  the hinge of the two columns (`hinge_apply`).
-/
import proofs.«181193_j86414741995528_1_alg».proof.Proof.KernelPieces
import proofs.«181193_j86414741995528_1_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Tile

open Cert.KernelIdeal Cert.KernelIdeal.Gen Cert.KernelIdeal.Pieces Cert.TripletSpec

/-! ## Two column layouts read at an index -/

section Layout
variable {α : Type}

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The point's row and column tile -/

theorem N64 : cfg0.N = 64 := N_0

/-- Point `t`'s row tile and column tile. -/
def rowTile (t : Fin cfg0.N) : Fin 16 := ⟨t.val / 4, by have := t.isLt; have := N64; omega⟩
def colTile (t : Fin cfg0.N) : Fin 4 := ⟨t.val % 4, Nat.mod_lt _ (by decide)⟩

/-- Row `p` of point `t`'s row tile and column `q` of its column tile, as rows of the feature matrix. -/
def rowOf (t : Fin cfg0.N) (p : Fin 512) : Fin 8192 := TiledFold.col (T := 16) (W := 512) (rowTile t) p
def colOf (t : Fin cfg0.N) (q : Fin 2048) : Fin 8192 := TiledFold.col (T := 4) (W := 2048) (colTile t) q

theorem rowOf_val (t : Fin cfg0.N) (p : Fin 512) : (rowOf t p).val = t.val / 4 * 512 + p.val := rfl
theorem colOf_val (t : Fin cfg0.N) (q : Fin 2048) : (colOf t q).val = t.val % 4 * 2048 + q.val := rfl

/-- Where the body's loads start, at each point of the grid: decided over the 64 points. -/
theorem off_rowFeat : ∀ t : Fin cfg0.N, k0_off1 (grid0.coords t) 0 = t.val / 4 * 512 ∧ k0_off1 (grid0.coords t) 1 = 0 :=
  (by decide +kernel : ∀ t : Fin grid0.N, k0_off1 (grid0.coords t) 0 = t.val / 4 * 512 ∧ k0_off1 (grid0.coords t) 1 = 0)
theorem off_colFeat : ∀ t : Fin cfg0.N, k0_off2 (grid0.coords t) 0 = t.val % 4 * 2048 ∧ k0_off2 (grid0.coords t) 1 = 0 :=
  (by decide +kernel : ∀ t : Fin grid0.N, k0_off2 (grid0.coords t) 0 = t.val % 4 * 2048 ∧ k0_off2 (grid0.coords t) 1 = 0)
theorem off_rowVec : ∀ t : Fin cfg0.N, k0_off3 (grid0.coords t) 0 = 0 ∧ k0_off3 (grid0.coords t) 1 = t.val / 4 * 512 :=
  (by decide +kernel : ∀ t : Fin grid0.N, k0_off3 (grid0.coords t) 0 = 0 ∧ k0_off3 (grid0.coords t) 1 = t.val / 4 * 512)
theorem off_colVec : ∀ t : Fin cfg0.N, k0_off4 (grid0.coords t) 0 = 0 ∧ k0_off4 (grid0.coords t) 1 = t.val % 4 * 2048 :=
  (by decide +kernel : ∀ t : Fin grid0.N, k0_off4 (grid0.coords t) 0 = 0 ∧ k0_off4 (grid0.coords t) 1 = t.val % 4 * 2048)

/-! ## The six blocks read at an index -/

section Blocks
variable {F : FTy → Type} [FloatOps F]

theorem rowFeat_apply (t : Fin cfg0.N) (x0 : Vec F S8192x128 .bf16) (p : Fin 512) (k : Fin 128) :
    rowFeat (grid0.coords t) x0 (ix2 p k) = x0 (ix2 (rowOf t p) k) := by
  refine congrArg x0 (funext fun a => Fin.ext ?_)
  match a with
  | ⟨0, _⟩ => show k0_off1 (grid0.coords t) 0 + 1 * p.val = t.val / 4 * 512 + p.val; rw [(off_rowFeat t).1]; omega
  | ⟨1, _⟩ => show k0_off1 (grid0.coords t) 1 + 1 * k.val = k.val; rw [(off_rowFeat t).2]; omega

theorem colFeat_apply (t : Fin cfg0.N) (x0 : Vec F S8192x128 .bf16) (q : Fin 2048) (k : Fin 128) :
    colFeat (grid0.coords t) x0 (ix2 q k) = x0 (ix2 (colOf t q) k) := by
  refine congrArg x0 (funext fun a => Fin.ext ?_)
  match a with
  | ⟨0, _⟩ => show k0_off2 (grid0.coords t) 0 + 1 * q.val = t.val % 4 * 2048 + q.val; rw [(off_colFeat t).1]; omega
  | ⟨1, _⟩ => show k0_off2 (grid0.coords t) 1 + 1 * k.val = k.val; rw [(off_colFeat t).2]; omega

theorem rowSq_apply (t : Fin cfg0.N) (x1 : Vec F S1x8192 .f32) (p : Fin 512) :
    rowSq (grid0.coords t) x1 (ix2 (0 : Fin 1) p) = x1 (ix2 (0 : Fin 1) (rowOf t p)) := by
  refine congrArg x1 (funext fun a => Fin.ext ?_)
  match a with
  | ⟨0, _⟩ => show k0_off3 (grid0.coords t) 0 + 1 * 0 = 0; rw [(off_rowVec t).1]
  | ⟨1, _⟩ => show k0_off3 (grid0.coords t) 1 + 1 * p.val = t.val / 4 * 512 + p.val; rw [(off_rowVec t).2]; omega

theorem colSq_apply (t : Fin cfg0.N) (x1 : Vec F S1x8192 .f32) (q : Fin 2048) :
    colSq (grid0.coords t) x1 (ix2 (0 : Fin 1) q) = x1 (ix2 (0 : Fin 1) (colOf t q)) := by
  refine congrArg x1 (funext fun a => Fin.ext ?_)
  match a with
  | ⟨0, _⟩ => show k0_off4 (grid0.coords t) 0 + 1 * 0 = 0; rw [(off_colVec t).1]
  | ⟨1, _⟩ => show k0_off4 (grid0.coords t) 1 + 1 * q.val = t.val % 4 * 2048 + q.val; rw [(off_colVec t).2]; omega

theorem rowLab_apply (t : Fin cfg0.N) (x2 : Vec F S1x8192 .i32) (p : Fin 512) :
    rowLab (grid0.coords t) x2 (ix2 (0 : Fin 1) p) = x2 (ix2 (0 : Fin 1) (rowOf t p)) := by
  refine congrArg x2 (funext fun a => Fin.ext ?_)
  match a with
  | ⟨0, _⟩ => show k0_off3 (grid0.coords t) 0 + 1 * 0 = 0; rw [(off_rowVec t).1]
  | ⟨1, _⟩ => show k0_off3 (grid0.coords t) 1 + 1 * p.val = t.val / 4 * 512 + p.val; rw [(off_rowVec t).2]; omega

theorem colLab_apply (t : Fin cfg0.N) (x2 : Vec F S1x8192 .i32) (q : Fin 2048) :
    colLab (grid0.coords t) x2 (ix2 (0 : Fin 1) q) = x2 (ix2 (0 : Fin 1) (colOf t q)) := by
  refine congrArg x2 (funext fun a => Fin.ext ?_)
  match a with
  | ⟨0, _⟩ => show k0_off4 (grid0.coords t) 0 + 1 * 0 = 0; rw [(off_colVec t).1]
  | ⟨1, _⟩ => show k0_off4 (grid0.coords t) 1 + 1 * q.val = t.val % 4 * 2048 + q.val; rw [(off_colVec t).2]; omega

end Blocks

/-! ## The tile's product, entry by entry -/

theorem lhs_tile_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_tile_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_tile_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_tile_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The product of a 512 × 128 block with a 128 × 2048 block, into zero, is at `(p, q)` the sum over the 128
    features of the products of row `p` of the one with column `q` of the other. -/
theorem matmul_tile_apply (a : FVec Ideal S512x128 .bf16) (b : FVec Ideal S128x2048 .bf16) (p : Fin 512) (q : Fin 2048) :
    matmul dot_S512x128_S128x2048_S512x2048_1_0_0_1_n_n none a b (constant (F := Ideal) S512x2048 .f32 0x00000000#32) (ix2 p q)
      = ∑ k : Fin 128, a (ix2 p k) * b (ix2 k q) := by
  simp only [matmul]
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 p q) ((ValueIdx.contrEquiv1 dot_S512x128_S128x2048_S512x2048_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S512x128_S128x2048_S512x2048_1_0_0_1_n_n.rhsIdx (ix2 p q) ((ValueIdx.contrEquiv1 dot_S512x128_S128x2048_S512x2048_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-! ## The tile's entries -/

/-- The transposed row stretch is a column: at `(p, 0)` it reads the row at `(0, p)`. -/
theorem transpose_row_apply {α : Type} (v : S1x512.Idx → α) (p : Fin 512) :
    transpose S512x1 [1, 0] v transposes_S1x512_p1_0_S512x1 (ix2 p (0 : Fin 1)) = v (ix2 (0 : Fin 1) p) :=
  transpose_apply _ v _ _ _ fun c => match c with | ⟨0, _⟩ => rfl | ⟨1, _⟩ => rfl

/-- The transposed column-tile features: at `(k, q)` they read the block at `(q, k)`. -/
theorem transpose_feat_apply {α : Type} (v : S2048x128.Idx → α) (k : Fin 128) (q : Fin 2048) :
    transpose S128x2048 [1, 0] v transposes_S2048x128_p1_0_S128x2048 (ix2 k q) = v (ix2 q k) :=
  transpose_apply _ v _ _ _ fun c => match c with | ⟨0, _⟩ => rfl | ⟨1, _⟩ => rfl

/-- Entry `(p, q)` of the tile of label agreements compares the labels of the two rows. -/
theorem tileSame_apply (t : Fin cfg0.N) (x2 : Vec Ideal S1x8192 .i32) (p : Fin 512) (q : Fin 2048) :
    tileSame (F := Ideal) (grid0.coords t) x2 (ix2 p q)
      = IntOp.cmpi .eq (x2 (ix2 (0 : Fin 1) (rowOf t p))) (x2 (ix2 (0 : Fin 1) (colOf t q))) := by
  simp only [tileSame, k0_pay7, cmpi, broadcastTo_a1_ab_apply, ValueIdx.broadcastTo_1b_ab_apply, shapeCast_self]
  rw [transpose_row_apply, rowLab_apply, colLab_apply]

/-- Entry `(p, q)` of the tile of distances, from the staged feature rows and squared norms. -/
theorem tileDist_apply (t : Fin cfg0.N) (x0 : Vec Ideal S8192x128 .bf16) (x1 : Vec Ideal S1x8192 .f32) (p : Fin 512) (q : Fin 2048) :
    tileDist (F := Ideal) (grid0.coords t) x0 x1 (ix2 p q)
      = Ideal.sqrt (max (x1 (ix2 (0 : Fin 1) (rowOf t p)) + x1 (ix2 (0 : Fin 1) (colOf t q))
          - twoF * ∑ k : Fin 128, x0 (ix2 (rowOf t p) k) * x0 (ix2 (colOf t q) k)) epsF) := by
  have hg : (∑ k : Fin 128, rowFeat (F := Ideal) (grid0.coords t) x0 (ix2 p k)
        * transpose S128x2048 [1, 0] (colFeat (F := Ideal) (grid0.coords t) x0) transposes_S2048x128_p1_0_S128x2048 (ix2 k q))
      = ∑ k : Fin 128, x0 (ix2 (rowOf t p) k) * x0 (ix2 (colOf t q) k) :=
    Finset.sum_congr rfl fun k _ => by rw [transpose_feat_apply, rowFeat_apply, colFeat_apply]
  simp only [tileDist, k0_pay6, sqrt, maximumf, subf, addf, mulf, broadcast, matmul_tile_apply, broadcastTo_a1_ab_apply,
    ValueIdx.broadcastTo_1b_ab_apply, shapeCast_self]
  rw [transpose_row_apply, rowSq_apply, colSq_apply, hg]
  rfl

/-! ## Row maxima and minima of a tile -/

/-- The row maximum of a 512 × 2048 tile, from −∞: at row `p` the maximum over the 2048 columns. -/
theorem rowMax_apply (v : FVec Ideal S512x2048 .f32) (hφ : FKind.Formats .f32)
    (hacc : (0xFF800000#32 : BitVec 32) = FKind.maximumf.neutral .f32 hφ) (p : Fin 512) :
    multiReduction .maximumf [1] S512 v 0xFF800000#32 reduces_S512x2048_S512 hφ hacc (ix1 p)
      = (Finset.univ : Finset (Fin 2048)).fold max negInf fun q => v (ix2 p q) := by
  refine (Ideal.multiReduction_maximumf_single v _ reduces_S512x2048_S512 hφ hacc (ix1 p)).trans ?_
  refine Finset.fold_congr fun q _ => ?_
  exact congrArg v (funext fun a => Fin.ext (by match a with | ⟨0, _⟩ => rfl | ⟨1, _⟩ => rfl))

/-- The row minimum of a tile, from +∞. -/
theorem rowMin_apply (v : FVec Ideal S512x2048 .f32) (hφ : FKind.Formats .f32)
    (hacc : (0x7F800000#32 : BitVec 32) = FKind.minimumf.neutral .f32 hφ) (p : Fin 512) :
    multiReduction .minimumf [1] S512 v 0x7F800000#32 reduces_S512x2048_S512 hφ hacc (ix1 p)
      = (Finset.univ : Finset (Fin 2048)).fold min posInf fun q => v (ix2 p q) := by
  refine (multiReduction_minimumf_eq_fold v _ reduces_S512x2048_S512 hφ hacc (ix1 p)).trans ?_
  refine (reduces_S512x2048_S512.fold_filter_drop_single _ _ v (ix1 p)).trans ?_
  refine Finset.fold_congr fun q _ => ?_
  exact congrArg v (funext fun a => Fin.ext (by match a with | ⟨0, _⟩ => rfl | ⟨1, _⟩ => rfl))

/-- A column transposed to a row: at `(0, p)` it reads the column at `(p, 0)`. -/
theorem transpose_col_apply {α : Type} (v : S512x1.Idx → α) (p : Fin 512) :
    transpose S1x512 [1, 0] v transposes_S512x1_p1_0_S1x512 (ix2 (0 : Fin 1) p) = v (ix2 p (0 : Fin 1)) :=
  transpose_apply _ v _ _ _ fun c => match c with | ⟨0, _⟩ => rfl | ⟨1, _⟩ => rfl

/-! ## The tile against the specification

The staged arrays are the feature matrix, the row of its squared norms and the row of the labels. -/

section Spec
variable (X : Feat) (lab : Lab)
variable (x0 : Vec Ideal S8192x128 .bf16) (x1 : Vec Ideal S1x8192 .f32) (x2 : Vec Ideal S1x8192 .i32)
variable (h0 : ∀ (r : Fin 8192) (k : Fin 128), x0 (ix2 r k) = X (ix2 r k))
variable (h1 : ∀ r : Fin 8192, x1 (ix2 (0 : Fin 1) r) = sqNorm X r)
variable (h2 : ∀ r : Fin 8192, x2 (ix2 (0 : Fin 1) r) = lab (ix1 r))
include h0 h1 in
theorem tileDist_eq (t : Fin cfg0.N) (p : Fin 512) (q : Fin 2048) :
    tileDist (F := Ideal) (grid0.coords t) x0 x1 (ix2 p q) = dist X (rowOf t p) (colOf t q) := by
  rw [tileDist_apply, h1, h1]
  simp only [h0]
  rfl

include h2 in
theorem tileSame_eq (t : Fin cfg0.N) (p : Fin 512) (q : Fin 2048) :
    tileSame (F := Ideal) (grid0.coords t) x2 (ix2 p q) = sameLabel lab (rowOf t p) (colOf t q) := by
  rw [tileSame_apply, h2, h2]
  rfl

include h0 h1 h2 in
/-- The tile masked to −∞ off the label agreements holds the positive candidates. -/
theorem tilePos_eq (t : Fin cfg0.N) (p : Fin 512) (q : Fin 2048) :
    tilePos (F := Ideal) (grid0.coords t) x0 x1 x2 (ix2 p q) = posCand X lab (rowOf t p) (colOf t q) := by
  show Scalar.select (tileSame (F := Ideal) (grid0.coords t) x2 (ix2 p q)) (tileDist (F := Ideal) (grid0.coords t) x0 x1 (ix2 p q)) _ = _
  rw [tileSame_eq lab x2 h2, tileDist_eq X x0 x1 h0 h1]
  rfl

include h0 h1 h2 in
/-- The tile set to +∞ on the label agreements holds the negative candidates. -/
theorem tileNeg_eq (t : Fin cfg0.N) (p : Fin 512) (q : Fin 2048) :
    select (tileSame (F := Ideal) (grid0.coords t) x2) (broadcast S512x2048 (Scalar.ofBits (F := Ideal) .f32 0x7F800000#32))
        (tileDist (F := Ideal) (grid0.coords t) x0 x1) (ix2 p q)
      = negCand X lab (rowOf t p) (colOf t q) := by
  show Scalar.select (tileSame (F := Ideal) (grid0.coords t) x2 (ix2 p q)) _ (tileDist (F := Ideal) (grid0.coords t) x0 x1 (ix2 p q)) = _
  rw [tileSame_eq lab x2 h2, tileDist_eq X x0 x1 h0 h1]
  rfl

include h0 h1 h2 in
/-- After point `t` the maximum column holds, at row `p`, what it held joined with the column tile's maximum of row
    `p`'s positive candidates. -/
theorem nextMax_apply (t : Fin cfg0.N) (prev : Vec Ideal S512x1 .f32) (p : Fin 512) :
    nextMax (F := Ideal) (grid0.coords t) x0 x1 x2 prev (ix2 p (0 : Fin 1))
      = max (prev (ix2 p (0 : Fin 1))) (posTile X lab (rowOf t p) (colTile t)) := by
  simp only [nextMax, k0_pay1, maximumf, shapeCast_self]
  rw [shapeCast_a_a1_apply]
  refine congrArg (max _) ((rowMax_apply _ _ _ p).trans ?_)
  exact Finset.fold_congr (op := (max : EReal → EReal → EReal)) fun q _ => tilePos_eq X lab x0 x1 x2 h0 h1 h2 t p q

include h0 h1 h2 in
/-- and the minimum column what it held joined with the column tile's minimum of row `p`'s negative candidates. -/
theorem nextMin_apply (t : Fin cfg0.N) (prev : Vec Ideal S512x1 .f32) (p : Fin 512) :
    nextMin (F := Ideal) (grid0.coords t) x0 x1 x2 prev (ix2 p (0 : Fin 1))
      = min (prev (ix2 p (0 : Fin 1))) (negTile X lab (rowOf t p) (colTile t)) := by
  simp only [nextMin, k0_pay2, minimumf, shapeCast_self]
  rw [shapeCast_a_a1_apply]
  refine congrArg (min _) ((rowMin_apply _ _ _ p).trans ?_)
  exact Finset.fold_congr (op := (min : EReal → EReal → EReal)) fun q _ => tileNeg_eq X lab x0 x1 x2 h0 h1 h2 t p q

end Spec

/-- The output block: at `(0, p)` the hinge of the two columns at row `p`. -/
theorem hinge_apply (a b : Vec Ideal S512x1 .f32) (p : Fin 512) :
    k0_pay3 (F := Ideal) a b (ix2 (0 : Fin 1) p) = max (a (ix2 p (0 : Fin 1)) - b (ix2 p (0 : Fin 1)) + marginF) zeroF := by
  unfold k0_pay3
  rw [transpose_col_apply]
  rfl

end Cert.KernelIdeal.Tile

end
-- ==== Proof.KernelHost.lean ====
/-
  The host operations around the kernel's region, read at the ideal values.

  Before the region the host stages three arrays: the features converted to the narrower float format (the identity on
  extended reals), the rows' squared norms laid out as one row of 8192, and the labels laid out the same way. After
  the region it sums the region's output row of 8192 from the zero starting value and divides by the row count. The
  staged arrays are read at coordinates; the tail is stated as one term of the region's output array and, for any
  array holding the rows' hinge losses, identified with the specification's mean loss.
-/
import proofs.«181193_j86414741995528_1_alg».proof.Proof.Gen.KernelIdeal.Frame
import proofs.«181193_j86414741995528_1_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Host

open Cert.KernelIdeal Cert.KernelIdeal.Gen Cert.TripletSpec Idealize.ShloMosaic.ValueIdx
open Idealize.ShloMosaic Idealize.ShloMosaic.TcCoe Idealize.SL.Sem Idealize.ShloMosaic.StableHlo

variable (m : (ℓ : Loc nD τ sig) → Buf (Elt Ideal) ℓ)

/-! ## The arrays staged before the region, as terms of the arguments -/

/-- The staged features: the argument, converted. -/
theorem feat_term (c : Dev nD) :
    (V (F := Ideal) m c main_v0 : S8192x128.Idx → EReal)
      = (truncf .bf16 (m ((c : Thread nD τ).loc main_arg0) : FVec Ideal S8192x128 .f32) bitsLt_bf16_f32
          : FVec Ideal S8192x128 .bf16) := by
  show StableHlo.after hostOps0 (fun b => m (c, b)) (Proc.devRef .tc main_v0) = _
  after_results

/-- The staged squared norms: the rows' sums of squares from the zero starting value, as one row. -/
theorem sq_term (c : Dev nD) :
    (V (F := Ideal) m c main_v3 : S1x8192.Idx → EReal)
      = shapeCast S1x8192 (Host.reduceAdd (mulf (m ((c : Thread nD τ).loc main_arg0) : FVec Ideal S8192x128 .f32)
          (m ((c : Thread nD τ).loc main_arg0))) (constant (F := Ideal) S_ .f32 0x00000000#32) reducesTo_S8192x128_S8192_d1 h_S_)
          shapeCasts_S8192_S1x8192 := by
  show StableHlo.after hostOps0 (fun b => m (c, b)) (Proc.devRef .tc main_v3) = _
  after_results
  rfl

/-- The staged labels: the argument, as one row. -/
theorem lab_term (c : Dev nD) :
    (V (F := Ideal) m c main_v4 : S1x8192.Idx → BitVec 32)
      = shapeCast S1x8192 (m ((c : Thread nD τ).loc main_arg1) : IVec S8192 32) shapeCasts_S8192_S1x8192 := by
  show StableHlo.after hostOps0 (fun b => m (c, b)) (Proc.devRef .tc main_v4) = _
  after_results
  rfl

/-! ## The staged arrays at coordinates -/

/-- The staged features at `(r, k)` are the argument's. -/
theorem staged_feat (c : Dev nD) (r : Fin 8192) (k : Fin 128) :
    V (F := Ideal) m c main_v0 (ix2 r k) = m ((c : Thread nD τ).loc main_arg0) (ix2 r k) :=
  congrFun (feat_term m c) (ix2 r k)

/-- A row's sum of squares from the zero starting value is the specification's squared norm. -/
theorem reduceAdd_sq (X : FVec Ideal S8192x128 .f32) (r : Fin 8192) :
    Host.reduceAdd (mulf X X) (constant (F := Ideal) S_ .f32 0x00000000#32) reducesTo_S8192x128_S8192_d1 h_S_ (ix1 r)
      = sqNorm X r := by
  unfold sqNorm
  simp only [Host.reduceAdd, Ideal.hostReduceAdd_def]
  rw [Ideal.hostReduceAdd_single reducesTo_S8192x128_S8192_d1 (by decide)]
  refine congrArg (_ + ·) (Finset.sum_congr rfl fun k _ => ?_)
  exact congrArg (fun i => X i * X i)
    (funext fun a => Fin.ext (by match a with | ⟨0, _⟩ => rfl | ⟨1, _⟩ => rfl))

/-- The staged squared norms at `(0, r)`. -/
theorem staged_sq (c : Dev nD) (r : Fin 8192) :
    V (F := Ideal) m c main_v3 (ix2 (0 : Fin 1) r) = sqNorm (m ((c : Thread nD τ).loc main_arg0)) r := by
  refine (congrFun (sq_term m c) (ix2 (0 : Fin 1) r)).trans ?_
  rw [shapeCast_a_1a_apply]
  exact reduceAdd_sq _ r

/-- The staged labels at `(0, r)`. -/
theorem staged_lab (c : Dev nD) (r : Fin 8192) :
    V (F := Ideal) m c main_v4 (ix2 (0 : Fin 1) r) = m ((c : Thread nD τ).loc main_arg1) (ix1 r) := by
  refine (congrFun (lab_term m c) (ix2 (0 : Fin 1) r)).trans ?_
  rw [shapeCast_a_1a_apply]

/-! ## The operations after the region -/

/-- The sum of an array of one row of 8192 from the zero starting value, divided by the row count, is the mean loss
    when the row holds the rows' hinge losses. -/
theorem mean_of_rows (X : Feat) (lab : Lab) (out : FVec Ideal S1x8192 .f32)
    (h : ∀ r : Fin 8192, out (ix2 (0 : Fin 1) r) = rowLoss X lab r) :
    Host.divf (Host.reduceAdd out (constant (F := Ideal) S_ .f32 0x00000000#32) reducesTo_S1x8192_S_d0_1 h_S_)
        (constant (F := Ideal) S_ .f32 0x46000000#32) = fun _ => meanLoss X lab := by
  funext i
  have hs : Host.reduceAdd out (constant (F := Ideal) S_ .f32 0x00000000#32) reducesTo_S1x8192_S_d0_1 h_S_ i
      = zeroF + ∑ j : S1x8192.Idx, out j := by
    simp only [Host.reduceAdd, Ideal.hostReduceAdd_def]
    exact Ideal.hostReduceAdd_total reducesTo_S1x8192_S_d0_1 (fun b => b.elim0) out _ i
  have hsum : ∑ j : S1x8192.Idx, out j = ∑ r : Fin 8192, rowLoss X lab r := by
    rw [sum_idx2, Fin.sum_univ_one]
    exact Finset.sum_congr rfl fun r _ => h r
  unfold meanLoss
  show Ideal.div (Host.reduceAdd out (constant (F := Ideal) S_ .f32 0x00000000#32) reducesTo_S1x8192_S_d0_1 h_S_ i) countF = _
  rw [hs, hsum]

/-- The program's result after the region: the tail's two operations applied to the region's output array. -/
theorem result_after (c : Dev nD) :
    Pipeline.afterTail₀ cfgs (dats m) 0 (V0 m) [hostOps1] c main_v7
      = Host.divf (Host.reduceAdd ((dats m 0 c).arrAt 3 cfg0.N) (constant (F := Ideal) S_ .f32 0x00000000#32)
          reducesTo_S1x8192_S_d0_1 h_S_) (constant (F := Ideal) S_ .f32 0x46000000#32) := by
  unfold Pipeline.afterTail₀
  show StableHlo.after hostOps1 _ (Proc.devRef .tc main_v7) = _
  after_results
  have hw := Pipeline.withArrays_arr spec0 launch0.win.arr_inj c (V0 m c) (fun w => (dats m 0 c).arrAt w cfg0.N) 3
  rw [← hw]

end Cert.KernelIdeal.Host

end
-- ==== Proof.KernelRun.lean ====
/-
  The kernel's run, read as values.

  The grid's 64 points are visited in order: point `t` is column tile `t % 4` of row tile `t / 4`.  The three staged
  arrays are read whole at every point, and they are the feature matrix, the row of its squared norms and the row of
  labels.  By induction on the point, after point `t` the two scratch columns hold, at row `p` of the row tile, the
  running maximum of that row's positive candidates and the running minimum of its negative candidates over the column
  tiles visited so far (`maxCol_eq`, `minCol_eq`).  At the last column tile of a row tile both have run over the whole
  row, so the block written back there holds the rows' hinge losses; the sixteen written blocks tile the output row,
  which therefore ends holding every row's hinge loss (`outRow_final`), and the host's tail turns it into the mean.
-/
import proofs.«181193_j86414741995528_1_alg».proof.Proof.TileIndex
import proofs.«181193_j86414741995528_1_alg».proof.Proof.KernelHost

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Pieces Cert.KernelIdeal.Tile Cert.KernelIdeal.Host Cert.TripletSpec

variable (m : (ℓ : Loc nD τ sig) → Buf (Elt Ideal) ℓ) (ρ : Dev nD → PrngReg)

/-- The two arguments on core `c`. -/
abbrev feat (c : Dev nD) : Feat := m ((c : Thread nD τ).loc main_arg0)
abbrev labels (c : Dev nD) : Lab := m ((c : Thread nD τ).loc main_arg1)

/-! ## The staged blocks are the arguments' -/

/-- The three input windows' block index is (0, 0) at every point: each block is its whole array. -/
theorem idx_in : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

theorem featBlk_apply (c : Dev nD) (t : Fin cfg0.N) (r : Fin 8192) (k : Fin 128) :
    (iblk m c 0 t : Vec Ideal S8192x128 .bf16) (ix2 r k) = feat m c (ix2 r k) := by
  refine Eq.trans ?_ (staged_feat m c r k)
  unfold iblk
  rw [View.read_apply]
  show V m c main_v0 _ = V m c main_v0 _
  congr 1
  funext a
  apply Fin.ext
  match a with
  | ⟨0, _⟩ => show win0_0.index t (0 : Fin 2) * 8192 + 1 * r.val = r.val; rw [(idx_in t).1.1]; omega
  | ⟨1, _⟩ => show win0_0.index t (1 : Fin 2) * 128 + 1 * k.val = k.val; rw [(idx_in t).1.2]; omega

theorem sqBlk_apply (c : Dev nD) (t : Fin cfg0.N) (r : Fin 8192) :
    (iblk m c 1 t : Vec Ideal S1x8192 .f32) (ix2 (0 : Fin 1) r) = sqNorm (feat m c) r := by
  refine Eq.trans ?_ (staged_sq m c r)
  unfold iblk
  rw [View.read_apply]
  show V m c main_v3 _ = V m c main_v3 _
  congr 1
  funext a
  apply Fin.ext
  match a with
  | ⟨0, _⟩ => show win0_1.index t (0 : Fin 2) * 1 + 1 * 0 = 0; rw [(idx_in t).2.1.1]
  | ⟨1, _⟩ => show win0_1.index t (1 : Fin 2) * 8192 + 1 * r.val = r.val; rw [(idx_in t).2.1.2]; omega

theorem labBlk_apply (c : Dev nD) (t : Fin cfg0.N) (r : Fin 8192) :
    (iblk m c 2 t : Vec Ideal S1x8192 .i32) (ix2 (0 : Fin 1) r) = labels m c (ix1 r) := by
  refine Eq.trans ?_ (staged_lab m c r)
  unfold iblk
  rw [View.read_apply]
  show V m c main_v4 _ = V m c main_v4 _
  congr 1
  funext a
  apply Fin.ext
  match a with
  | ⟨0, _⟩ => show win0_2.index t (0 : Fin 2) * 1 + 1 * 0 = 0; rw [(idx_in t).2.2.1]
  | ⟨1, _⟩ => show win0_2.index t (1 : Fin 2) * 8192 + 1 * r.val = r.val; rw [(idx_in t).2.2.2]; omega

/-! ## One point's step of the two columns -/

/-- At a row tile's first column tile the maximum column is this tile's, from −∞. -/
theorem max_first (c : Dev nD) (t : Fin cfg0.N) (h0 : t.val % 4 = 0) :
    (outsAt0 m c t.val t.isLt).2.1 = nextMax (grid0.coords t) (iblk m c 0 t) (iblk m c 1 t) (iblk m c 2 t) (k0_pay4 (F := Ideal)) := by
  have h1 : ¬t.val % 4 = 3 := by omega
  rw [outsAt0_A m c t h0 h1]
  dsimp only
  exact first_max c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

theorem min_first (c : Dev nD) (t : Fin cfg0.N) (h0 : t.val % 4 = 0) :
    (outsAt0 m c t.val t.isLt).2.2 = nextMin (grid0.coords t) (iblk m c 0 t) (iblk m c 1 t) (iblk m c 2 t) (k0_pay5 (F := Ideal)) := by
  have h1 : ¬t.val % 4 = 3 := by omega
  rw [outsAt0_A m c t h0 h1]
  dsimp only
  exact first_min c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- At every other column tile it is what the point before left, joined with this tile's. -/
theorem max_next (c : Dev nD) (t : Fin cfg0.N) (h0 : ¬t.val % 4 = 0) :
    (outsAt0 m c t.val t.isLt).2.1
      = nextMax (grid0.coords t) (iblk m c 0 t) (iblk m c 1 t) (iblk m c 2 t) (outsAt0 m c (t.val - 1) (Nat.lt_of_le_of_lt (Nat.sub_le _ _) t.isLt)).2.1 := by
  by_cases h1 : t.val % 4 = 3
  · rw [outsAt0_C m c t h0 h1]
    dsimp only
    exact last_max c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact mid_max c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2

theorem min_next (c : Dev nD) (t : Fin cfg0.N) (h0 : ¬t.val % 4 = 0) :
    (outsAt0 m c t.val t.isLt).2.2
      = nextMin (grid0.coords t) (iblk m c 0 t) (iblk m c 1 t) (iblk m c 2 t) (outsAt0 m c (t.val - 1) (Nat.lt_of_le_of_lt (Nat.sub_le _ _) t.isLt)).2.2 := by
  by_cases h1 : t.val % 4 = 3
  · rw [outsAt0_C m c t h0 h1]
    dsimp only
    exact last_min c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact mid_min c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2

/-- The output block at a row tile's last column tile: the hinge of the two columns after that tile. -/
theorem out_last (c : Dev nD) (t : Fin cfg0.N) (h3 : t.val % 4 = 3) :
    (outsAt0 m c t.val t.isLt).1
      = k0_pay3 (nextMax (grid0.coords t) (iblk m c 0 t) (iblk m c 1 t) (iblk m c 2 t) (outsAt0 m c (t.val - 1) (Nat.lt_of_le_of_lt (Nat.sub_le _ _) t.isLt)).2.1)
          (nextMin (grid0.coords t) (iblk m c 0 t) (iblk m c 1 t) (iblk m c 2 t) (outsAt0 m c (t.val - 1) (Nat.lt_of_le_of_lt (Nat.sub_le _ _) t.isLt)).2.2) := by
  have h0 : ¬t.val % 4 = 0 := by omega
  rw [outsAt0_C m c t h0 h3]
  dsimp only
  exact last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h3) (iblk m c 0 t) (iblk m c 1 t) (iblk m c 2 t)
    (outsAt0 m c (t.val - 1) (Nat.lt_of_le_of_lt (Nat.sub_le _ _) t.isLt)).2.1 (outsAt0 m c (t.val - 1) (Nat.lt_of_le_of_lt (Nat.sub_le _ _) t.isLt)).2.2

/-! ## The columns after each point -/

theorem pay4_apply (p : Fin 512) : k0_pay4 (F := Ideal) (ix2 p (0 : Fin 1)) = negInf := by
  unfold k0_pay4
  rw [shapeCast_self]
  rfl

theorem pay5_apply (p : Fin 512) : k0_pay5 (F := Ideal) (ix2 p (0 : Fin 1)) = posInf := by
  unfold k0_pay5
  rw [shapeCast_self]
  rfl

/-- Within a row tile the point before works on the same rows. -/
theorem rowOf_pred (n : ℕ) (hn : n + 1 < cfg0.N) (h : ¬(n + 1) % 4 = 0) (p : Fin 512) :
    rowOf ⟨n, Nat.lt_of_succ_lt hn⟩ p = rowOf ⟨n + 1, hn⟩ p :=
  Fin.ext (by rw [rowOf_val, rowOf_val]; show n / 4 * 512 + p.val = (n + 1) / 4 * 512 + p.val; omega)

/-- After point `n` the maximum column holds, at row `p`, the running maximum of that row's positive candidates over
    the `n % 4 + 1` column tiles visited so far. -/
theorem maxCol_eq (c : Dev nD) : ∀ (n : ℕ) (hn : n < cfg0.N) (p : Fin 512),
    (outsAt0 m c n hn).2.1 (ix2 p (0 : Fin 1)) = posUpTo (feat m c) (labels m c) (rowOf ⟨n, hn⟩ p) (n % 4 + 1)
  | 0, hn, p => by
    refine (congrFun (max_first m c ⟨0, hn⟩ rfl) _).trans ?_
    refine (nextMax_apply (feat m c) (labels m c) (iblk m c 0 ⟨0, hn⟩) (iblk m c 1 ⟨0, hn⟩) (iblk m c 2 ⟨0, hn⟩) (featBlk_apply m c ⟨0, hn⟩) (sqBlk_apply m c ⟨0, hn⟩) (labBlk_apply m c ⟨0, hn⟩) ⟨0, hn⟩ _ p).trans ?_
    rw [pay4_apply]
    have hs := posUpTo_succ (feat m c) (labels m c) (rowOf ⟨0, hn⟩ p) (colTile ⟨0, hn⟩)
    rw [show (colTile ⟨0, hn⟩).val = 0 from rfl, posUpTo_zero] at hs
    exact hs
  | n + 1, hn, p => by
    by_cases h0 : (n + 1) % 4 = 0
    · refine (congrFun (max_first m c ⟨n + 1, hn⟩ h0) _).trans ?_
      refine (nextMax_apply (feat m c) (labels m c) (iblk m c 0 ⟨n + 1, hn⟩) (iblk m c 1 ⟨n + 1, hn⟩) (iblk m c 2 ⟨n + 1, hn⟩) (featBlk_apply m c ⟨n + 1, hn⟩) (sqBlk_apply m c ⟨n + 1, hn⟩) (labBlk_apply m c ⟨n + 1, hn⟩) ⟨n + 1, hn⟩ _ p).trans ?_
      rw [pay4_apply]
      have hs := posUpTo_succ (feat m c) (labels m c) (rowOf ⟨n + 1, hn⟩ p) (colTile ⟨n + 1, hn⟩)
      rw [show (colTile ⟨n + 1, hn⟩).val = (n + 1) % 4 from rfl, h0, posUpTo_zero] at hs
      rw [h0]
      exact hs
    · refine (congrFun (max_next m c ⟨n + 1, hn⟩ h0) _).trans ?_
      refine (nextMax_apply (feat m c) (labels m c) (iblk m c 0 ⟨n + 1, hn⟩) (iblk m c 1 ⟨n + 1, hn⟩) (iblk m c 2 ⟨n + 1, hn⟩) (featBlk_apply m c ⟨n + 1, hn⟩) (sqBlk_apply m c ⟨n + 1, hn⟩) (labBlk_apply m c ⟨n + 1, hn⟩) ⟨n + 1, hn⟩ _ p).trans ?_
      show max ((outsAt0 m c n (Nat.lt_of_succ_lt hn)).2.1 (ix2 p (0 : Fin 1))) _ = _
      rw [maxCol_eq c n (Nat.lt_of_succ_lt hn) p, rowOf_pred n hn h0 p]
      have hs := posUpTo_succ (feat m c) (labels m c) (rowOf ⟨n + 1, hn⟩ p) (colTile ⟨n + 1, hn⟩)
      rw [show (colTile ⟨n + 1, hn⟩).val = (n + 1) % 4 from rfl] at hs
      have e : n % 4 + 1 = (n + 1) % 4 := by omega
      rw [e]
      exact hs

/-- and the minimum column the running minimum of its negative candidates. -/
theorem minCol_eq (c : Dev nD) : ∀ (n : ℕ) (hn : n < cfg0.N) (p : Fin 512),
    (outsAt0 m c n hn).2.2 (ix2 p (0 : Fin 1)) = negUpTo (feat m c) (labels m c) (rowOf ⟨n, hn⟩ p) (n % 4 + 1)
  | 0, hn, p => by
    refine (congrFun (min_first m c ⟨0, hn⟩ rfl) _).trans ?_
    refine (nextMin_apply (feat m c) (labels m c) (iblk m c 0 ⟨0, hn⟩) (iblk m c 1 ⟨0, hn⟩) (iblk m c 2 ⟨0, hn⟩) (featBlk_apply m c ⟨0, hn⟩) (sqBlk_apply m c ⟨0, hn⟩) (labBlk_apply m c ⟨0, hn⟩) ⟨0, hn⟩ _ p).trans ?_
    rw [pay5_apply]
    have hs := negUpTo_succ (feat m c) (labels m c) (rowOf ⟨0, hn⟩ p) (colTile ⟨0, hn⟩)
    rw [show (colTile ⟨0, hn⟩).val = 0 from rfl, negUpTo_zero] at hs
    exact hs
  | n + 1, hn, p => by
    by_cases h0 : (n + 1) % 4 = 0
    · refine (congrFun (min_first m c ⟨n + 1, hn⟩ h0) _).trans ?_
      refine (nextMin_apply (feat m c) (labels m c) (iblk m c 0 ⟨n + 1, hn⟩) (iblk m c 1 ⟨n + 1, hn⟩) (iblk m c 2 ⟨n + 1, hn⟩) (featBlk_apply m c ⟨n + 1, hn⟩) (sqBlk_apply m c ⟨n + 1, hn⟩) (labBlk_apply m c ⟨n + 1, hn⟩) ⟨n + 1, hn⟩ _ p).trans ?_
      rw [pay5_apply]
      have hs := negUpTo_succ (feat m c) (labels m c) (rowOf ⟨n + 1, hn⟩ p) (colTile ⟨n + 1, hn⟩)
      rw [show (colTile ⟨n + 1, hn⟩).val = (n + 1) % 4 from rfl, h0, negUpTo_zero] at hs
      rw [h0]
      exact hs
    · refine (congrFun (min_next m c ⟨n + 1, hn⟩ h0) _).trans ?_
      refine (nextMin_apply (feat m c) (labels m c) (iblk m c 0 ⟨n + 1, hn⟩) (iblk m c 1 ⟨n + 1, hn⟩) (iblk m c 2 ⟨n + 1, hn⟩) (featBlk_apply m c ⟨n + 1, hn⟩) (sqBlk_apply m c ⟨n + 1, hn⟩) (labBlk_apply m c ⟨n + 1, hn⟩) ⟨n + 1, hn⟩ _ p).trans ?_
      show min ((outsAt0 m c n (Nat.lt_of_succ_lt hn)).2.2 (ix2 p (0 : Fin 1))) _ = _
      rw [minCol_eq c n (Nat.lt_of_succ_lt hn) p, rowOf_pred n hn h0 p]
      have hs := negUpTo_succ (feat m c) (labels m c) (rowOf ⟨n + 1, hn⟩ p) (colTile ⟨n + 1, hn⟩)
      rw [show (colTile ⟨n + 1, hn⟩).val = (n + 1) % 4 from rfl] at hs
      have e : n % 4 + 1 = (n + 1) % 4 := by omega
      rw [e]
      exact hs

/-! ## The block written back, and the output row -/

/-- At a row tile's last column tile both columns have run over the whole row, so the output block holds the rows'
    hinge losses. -/
theorem out_row (c : Dev nD) (t : Fin cfg0.N) (h3 : t.val % 4 = 3) (p : Fin 512) :
    (outsAt0 m c t.val t.isLt).1 (ix2 (0 : Fin 1) p) = rowLoss (feat m c) (labels m c) (rowOf t p) := by
  have h0 : ¬t.val % 4 = 0 := by omega
  rw [out_last m c t h3, hinge_apply, ← max_next m c t h0, ← min_next m c t h0,
    maxCol_eq m c t.val t.isLt p, minCol_eq m c t.val t.isLt p, h3, hardestPos_eq, hardestNeg_eq]
  rfl

/-- The output row: every row's hinge loss. -/
def outRow (c : Dev nD) : FVec Ideal S1x8192 .f32 := fun y => rowLoss (feat m c) (labels m c) (y 1)

/-- The output window's block index at point `t` is (0, t / 4). -/
theorem idx_out : ∀ t : Fin cfg0.N, win0_3.index t (0 : Fin 2) = 0 ∧ win0_3.index t (1 : Fin 2) = t.val / 4 :=
  (by decide +kernel : ∀ t : Fin grid0.N, _)

/-- Two blocks of one row of 512 agree when they agree entry by entry. -/
theorem ext_row {α : Type} (f g : S1x512.Idx → α) (h : ∀ p : Fin 512, f (ix2 (0 : Fin 1) p) = g (ix2 (0 : Fin 1) p)) : f = g :=
  funext fun y => by
    have hy : y = ix2 (0 : Fin 1) (y 1) := funext fun a => by
      match a with
      | ⟨0, _⟩ => exact Fin.ext (by have : (y 0).val < 1 := (y 0).isLt; show (y 0).val = 0; omega)
      | ⟨1, _⟩ => rfl
    rw [hy]
    exact h _

/-- What a writing point writes back is its block of the output row. -/
theorem flushed_eq (c : Dev nD) (t : Fin cfg0.N) (hf : (cfg0.win 3).flush t = true) :
    (dats m 0 c).flushed 3 t = ((cfg0.win 3).blk t).view.read (Elt Ideal) (outRow m c) := by
  have h3 : t.val % 4 = 3 := (flush0_3 t).mp hf
  show (cfg0.win 3).cut (grid0.coords t) ((dats m 0 c).after 3 t) = _
  rw [after0_3]
  refine ext_row _ _ fun p => ?_
  refine (show _ = (outsAt0 m c t.val t.isLt).1 (ix2 (0 : Fin 1) p) from rfl).trans ?_
  rw [out_row m c t h3 p, View.read_apply]
  show _ = outRow m c _
  unfold outRow
  refine congrArg (rowLoss (feat m c) (labels m c)) (Fin.ext ?_)
  show t.val / 4 * 512 + p.val = win0_3.index t (1 : Fin 2) * 512 + 1 * p.val
  rw [(idx_out t).2]
  omega

/-- An index of the output row is in point `t`'s block iff each coordinate is in the block's range on its axis. -/
theorem mem_blk_out (t : Fin cfg0.N) (i : S1x8192.Idx) :
    i ∈ ((cfg0.win 3).blk t).view.set ↔ ∀ a : Fin 2, win0_3.index t a * S1x512.size a ≤ (i a).val
      ∧ (i a).val < win0_3.index t a * S1x512.size a + S1x512.size a := by
  show i ∈ ((View.whole main_v5).slice (win0_3.rect t)).set ↔ _
  rw [View.set_slice_whole, Rect.mem_set_unit]
  exact Iff.rfl

/-- Every index of the output row is in the block written at the last column tile of its row tile. -/
theorem covered (i : S1x8192.Idx) : ∃ t : Fin cfg0.N, (cfg0.win 3).flush t = true ∧ i ∈ ((cfg0.win 3).blk t).view.set := by
  have hi : (i 1).val < 8192 := (i 1).isLt
  have hi0 : (i 0).val < 1 := (i 0).isLt
  obtain ⟨t, ht⟩ : ∃ t : Fin cfg0.N, t.val = (i 1).val / 512 * 4 + 3 := ⟨⟨_, by rw [N64]; omega⟩, rfl⟩
  refine ⟨t, (flush0_3 t).mpr (by rw [ht]; omega), (mem_blk_out t i).mpr fun a => ?_⟩
  match a with
  | ⟨0, _⟩ =>
    show win0_3.index t (0 : Fin 2) * 1 ≤ (i 0).val ∧ (i 0).val < win0_3.index t (0 : Fin 2) * 1 + 1
    rw [(idx_out t).1]; omega
  | ⟨1, _⟩ =>
    show win0_3.index t (1 : Fin 2) * 512 ≤ (i 1).val ∧ (i 1).val < win0_3.index t (1 : Fin 2) * 512 + 512
    rw [(idx_out t).2, ht]; omega

/-- The sixteen written blocks tile the output row, so it ends holding every row's hinge loss. -/
theorem outRow_final (c : Dev nD) : (dats m 0 c).arrAt 3 cfg0.N = outRow m c :=
  (dats m 0 c).arrAt_eq_of_cover 3 (outRow m c) (flushed_eq m c) covered

/-! ## The run -/

/-- Every weakly fair execution of the kernel's program ends with its result at the mean loss of the two arguments, and
    the arguments unchanged. -/
theorem run : θ_run defs (onTc (τ := τ) (main (F := Ideal))) ⟨m, fun _ => 0, ρ⟩ fun r => ∀ c : Dev nD,
      r.2.mem ((c.tc : Thread nD τ).loc main_v7) = (fun _ => meanLoss (feat m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v7 (Pipeline.mem_restRefs_of main_v7 (by decide) (by decide))).trans
          ((result_after m c).trans (mean_of_rows (feat m c) (labels m c) _ fun r => by rw [outRow_final]; rfl)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RunValue

end
-- ==== Proof.lean ====
/-
  The batch-hard triplet margin loss: a tiled kernel against its whole-matrix reference, over the extended reals.

  Both programs take a feature matrix X : [8192, 128] and 8192 labels and return one number,
      (0 + Σ_r max (hardestPos r − hardestNeg r + margin) 0) / 8192,
  where, with dist r c = sqrt (max (|x_r|² + |x_c|² − 2 ⟨x_r, x_c⟩) ε), hardestPos r is the maximum from −∞ of
  dist r c over the columns c whose label agrees with r's, and hardestNeg r the minimum from +∞ of dist r c over the
  others (Spec.lean).  The reference forms the whole 8192 × 8192 matrix and reduces each row at once (RefLoss.lean).
  The kernel visits a 16 × 4 grid of 512 × 2048 tiles, row tile by row tile; per row it keeps a running maximum and a
  running minimum in two scratch columns, reset at a row tile's first column tile, joined with each tile's row maxima
  and minima, and turned into the rows' hinge losses at its last column tile; the host then takes the mean
  (KernelPieces.lean, TileIndex.lean, KernelRun.lean, KernelHost.lean).  What joins the two sides is a lattice fact:
  a maximum (minimum) over a row is the running maximum (minimum) over its four tiles (LibTiledFold.lean) — no sum is
  regrouped across the two programs, the products and sums inside a distance are the same on both sides, and the
  conversion of the features to a narrower float format before the product is the identity on extended reals.  So the
  precondition (finite inputs) is not used by the equality; the three frames are the generated ones, the reference's
  read off its generated run, and the ideal pass rewrote nothing.
-/
import proofs.«181193_j86414741995528_1_alg».proof.Defs
import proofs.«181193_j86414741995528_1_alg».proof.Proof.Gen.Kernel
import proofs.«181193_j86414741995528_1_alg».proof.Proof.Gen.Kernel.Skeleton
import proofs.«181193_j86414741995528_1_alg».proof.Proof.Gen.Kernel.Launch
import proofs.«181193_j86414741995528_1_alg».proof.Proof.Gen.Kernel.Points
import proofs.«181193_j86414741995528_1_alg».proof.Proof.Gen.Kernel.Frame
import proofs.«181193_j86414741995528_1_alg».proof.Proof.Gen.KernelIdeal
import proofs.«181193_j86414741995528_1_alg».proof.Proof.Gen.KernelIdeal.Skeleton
import proofs.«181193_j86414741995528_1_alg».proof.Proof.Gen.KernelIdeal.Launch
import proofs.«181193_j86414741995528_1_alg».proof.Proof.Gen.KernelIdeal.Points
import proofs.«181193_j86414741995528_1_alg».proof.Proof.Gen.KernelIdeal.Frame
import proofs.«181193_j86414741995528_1_alg».proof.Proof.Gen.ReferenceIdeal
import proofs.«181193_j86414741995528_1_alg».proof.Proof.Gen.Pre_finite_inputs
import proofs.«181193_j86414741995528_1_alg».proof.Proof.Gen.ReferenceIdeal.Run
import proofs.«181193_j86414741995528_1_alg».proof.Proof.Gen.ReferenceIdeal.Read
import proofs.«181193_j86414741995528_1_alg».proof.Proof.RefLoss
import proofs.«181193_j86414741995528_1_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does its reading over the extended reals. -/
theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From arguments that agree, both programs end at the mean loss of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.TripletSpec.meanLoss (Cert.KernelIdeal.RunValue.feat m c) (Cert.KernelIdeal.RunValue.labels m c),
    Cert.KernelIdeal.RunValue.run m ρ, ?_⟩
  refine (θ_run Cert.ReferenceIdeal.defs _ _).mono (fun _ h c => ⟨?_, (h c).2⟩) (Cert.ReferenceIdeal.Value.run (F := Ideal) m' ρ')
  refine (h c).1.trans ?_
  refine (Cert.ReferenceIdeal.Read.val_main_v29_eq (F := Ideal) _ _).trans ?_
  refine (Cert.TripletRef.ref_result _ _).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
